-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S200x10000 : Shape := ⟨2, ![200, 10000]⟩
abbrev S200x128 : Shape := ⟨2, ![200, 128]⟩
abbrev S10000x256 : Shape := ⟨2, ![10000, 256]⟩
abbrev S200x256 : Shape := ⟨2, ![200, 256]⟩

abbrev nBuf : Space → Nat
  | .hbm => 5
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S128x128, .f32⟩
  | .local _ .vmem, ⟨3, _⟩ => ⟨S200x10000, .f32⟩
  | .local _ .vmem, ⟨4, _⟩ => ⟨S200x10000, .f32⟩
  | .local _ .vmem, ⟨5, _⟩ => ⟨S200x128, .f32⟩
  | .local _ .vmem, ⟨6, _⟩ => ⟨S200x128, .f32⟩
  | .local _ .vmem, ⟨7, _⟩ => ⟨S10000x256, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S200x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  concatenates_S10000x128_S10000x128_S10000x256_d1 : Shape.Concatenates [S10000x128, S10000x128] S10000x256 1
  bitsLt_bf16_f32 : FTy.bits .bf16 < FTy.bits .f32
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  packedbf16_S10000x256_S10000x256_0_0 : (Rect.unit (s := S10000x256) ![0, 0] S10000x256.size inb_S10000x256_S10000x256_0_0).PackedRows (EltTy.packing .bf16)
  inb_S200x10000_S200x10000_0_0 : ∀ a, (![0, 0] : Fin 2 → Nat) a + S200x10000.size a ≤ S200x10000.size a
  h_S200x10000 : 0 < S200x10000.numel
  slices_S200x256_o0_0_S200x128 : S200x256.Slices ![0, 0] S200x128
  slices_S200x256_o0_128_S200x128 : S200x256.Slices ![0, 128] S200x128
  inb_S200x128_S200x128_0_0 : ∀ a, (![0, 0] : Fin 2 → Nat) a + S200x128.size a ≤ S200x128.size a
  h_S200x128 : 0 < S200x128.numel
  dot_S10000x128_S128x128_S10000x128_1_0_0_1_n_n_wf : DotDims.WF S10000x128 S128x128 S10000x128 [1] [0] [0] [1] [] []
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x128.size a ≤ S10000x128.size a
  hwx0_4 : ∀ i : grid0.Coords, EltTy.bits .f32 = 32 ∨ (Rect.block (s := S10000x128) S200x128.size (cc0_transform_4 i) (hinb0_4 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S200x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128x128, .f32⟩
  | .hbm, ⟨4, _⟩ => ⟨S10000x128, .f32⟩
  | .hbm, ⟨5, _⟩ => ⟨S10000x128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S_, .f32⟩
  | .hbm, ⟨11, _⟩ => ⟨S10000x128, .f32⟩
  | .hbm, ⟨12, _⟩ => ⟨S10000x128, .f32⟩
  | .hbm, ⟨13, _⟩ => ⟨S_, .f32⟩
  | .hbm, ⟨14, _⟩ => ⟨S10000x128, .f32⟩
  | .hbm, ⟨15, _⟩ => ⟨S10000x128, .f32⟩
  | .hbm, ⟨16, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Pieces.lean ====
/-
  What one run of the kernel body leaves behind, as values.

  The body has two cases. At the first grid point it projects every node's features with both weight matrices, lays
  the two projections side by side (`projected`: columns 0–127 the support, 128–255 the gate) and parks them in the
  scratch buffer; at every point it multiplies the current block of adjacency rows with the parked projections and
  gates the left half of the product with the logistic of the right half (`gatedBlock`).

  The generated frame states the contents of the output block and of the scratch after each case as the body's
  stores read back; here each is identified with the body's arithmetic on the values the case loaded:
  the scratch after the first point is `projected` of the three whole input blocks, the output block of the first
  point is `gatedBlock` of its adjacency block and those fresh projections (the body reads the scratch back after
  storing it), and the output block of any later point is `gatedBlock` of its adjacency block and whatever the scratch
  held when the point began.
-/
import proofs.«180950_g21887153340605_cont_8to1_463_3_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem origin : (![0, 0] : Fin 2 → Nat) = fun _ => 0 := funext fun a => by fin_cases a <;> rfl

/-- The two projections side by side, as the first point parks them. -/
abbrev projected (x : Vec F S10000x128 .f32) (w wg : Vec F S128x128 .f32) : Vec F S10000x256 .bf16 := k0_pay1 x w wg

/-- A block of adjacency rows against parked projections, gated. -/
abbrev gatedBlock (a : Vec F S200x10000 .f32) (s : Vec F S10000x256 .bf16) : Vec F S200x128 .f32 := k0_pay2 a s

/-- A later point: the output block is the gated product of its adjacency block with the scratch as the point found it. -/
theorem later_out (c : Dev nD) (i : grid0.Coords) (a1 : Memref sig .tc .vmem S10000x128 .f32) (h1 : a1.IsWhole)
    (a2 : Memref sig .tc .vmem S128x128 .f32) (h2 : a2.IsWhole) (a3 : Memref sig .tc .vmem S128x128 .f32) (h3 : a3.IsWhole)
    (a4 : Memref sig .tc .vmem S200x10000 .f32) (h4 : a4.IsWhole) (a5 : Memref sig .tc .vmem S200x128 .f32) (h5 : a5.IsWhole)
    (a6 : Memref sig .tc .vmem S10000x256 .bf16) (h6 : a6.IsWhole) (hc : ¬cond0_0 i)
    (x0 : Vec F S10000x128 .f32) (x1 : Vec F S128x128 .f32) (x2 : Vec F S128x128 .f32) (x3 : Vec F S200x10000 .f32)
    (xs : Vec F S10000x256 .bf16) :
    out0_B_4 c i a1 h1 a2 h2 a3 h3 a4 h4 a5 h5 a6 h6 hc x0 x1 x2 x3 xs = gatedBlock x3 xs := by
  unfold out0_B_4
  rw [View.read_writes_eq_canon _ _ _ (cover0_B_4 c i a1 h1 a2 h2 a3 h3 a4 h4 a5 h5 a6 h6 hc x0 x1 x2 x3 xs)]
  unfold kernelRun0_B
  dsimp only
  rw [View.canon_unit_zero origin]
  simp only [View.readAt_eq_ld, h4.read_unread, h6.read_unread, View.ld_unit_zero (S := S200x10000) origin,
    View.ld_unit_zero (S := S10000x256) origin]

/-- The first point: the scratch ends holding the two projections of the whole input blocks. -/
theorem first_scratch (c : Dev nD) (i : grid0.Coords) (a1 : Memref sig .tc .vmem S10000x128 .f32) (h1 : a1.IsWhole)
    (a2 : Memref sig .tc .vmem S128x128 .f32) (h2 : a2.IsWhole) (a3 : Memref sig .tc .vmem S128x128 .f32) (h3 : a3.IsWhole)
    (a4 : Memref sig .tc .vmem S200x10000 .f32) (h4 : a4.IsWhole) (a5 : Memref sig .tc .vmem S200x128 .f32) (h5 : a5.IsWhole)
    (a6 : Memref sig .tc .vmem S10000x256 .bf16) (h6 : a6.IsWhole) (hc : cond0_0 i)
    (x0 : Vec F S10000x128 .f32) (x1 : Vec F S128x128 .f32) (x2 : Vec F S128x128 .f32) (x3 : Vec F S200x10000 .f32) :
    sout0_A_0 c i a1 h1 a2 h2 a3 h3 a4 h4 a5 h5 a6 h6 hc x0 x1 x2 x3 = projected x0 x1 x2 := by
  unfold sout0_A_0
  rw [View.read_writes_eq_canon _ _ _ (scover0_A_0 c i a1 h1 a2 h2 a3 h3 a4 h4 a5 h5 a6 h6 hc x0 x1 x2 x3)]
  unfold kernelRun0_A
  dsimp only
  sl_unfold_words
  rw [View.canon_unit_zero origin]
  simp only [View.readAt_eq_ld, h1.read_unread, h2.read_unread, h3.read_unread, View.ld_unit_zero (S := S10000x128) origin,
    View.ld_unit_zero (S := S128x128) origin]

/-- The first point: the output block is the gated product of its adjacency block with the projections just parked. -/
theorem first_out (c : Dev nD) (i : grid0.Coords) (a1 : Memref sig .tc .vmem S10000x128 .f32) (h1 : a1.IsWhole)
    (a2 : Memref sig .tc .vmem S128x128 .f32) (h2 : a2.IsWhole) (a3 : Memref sig .tc .vmem S128x128 .f32) (h3 : a3.IsWhole)
    (a4 : Memref sig .tc .vmem S200x10000 .f32) (h4 : a4.IsWhole) (a5 : Memref sig .tc .vmem S200x128 .f32) (h5 : a5.IsWhole)
    (a6 : Memref sig .tc .vmem S10000x256 .bf16) (h6 : a6.IsWhole) (hc : cond0_0 i)
    (x0 : Vec F S10000x128 .f32) (x1 : Vec F S128x128 .f32) (x2 : Vec F S128x128 .f32) (x3 : Vec F S200x10000 .f32) :
    out0_A_4 c i a1 h1 a2 h2 a3 h3 a4 h4 a5 h5 a6 h6 hc x0 x1 x2 x3 = gatedBlock x3 (projected x0 x1 x2) := by
  unfold out0_A_4
  rw [View.read_writes_eq_canon _ _ _ (cover0_A_4 c i a1 h1 a2 h2 a3 h3 a4 h4 a5 h5 a6 h6 hc x0 x1 x2 x3)]
  unfold kernelRun0_A
  dsimp only
  sl_unfold_words
  rw [View.canon_unit_zero origin]
  simp only [View.readAt_eq_ld, h1.read_unread, h2.read_unread, h3.read_unread, h4.read_unread,
    View.ld_unit_zero (S := S10000x128) origin, View.ld_unit_zero (S := S128x128) origin,
    View.ld_unit_zero (S := S200x10000) origin, View.readCov_unit_zero (S := S10000x256) _ origin]

end Cert.KernelIdeal.Pieces

end
-- ==== Proof.Spec.lean ====
/-
  The mathematics of the gated graph convolution, stated once over plain index functions on the extended reals.

  For a node-feature matrix `x` (10000 × 128), a dense adjacency `a` (10000 × 10000) and two weight matrices
  `w`, `wg` (128 × 128) the result at node `i` and output feature `l` is

      (∑ₖ a i k · (∑ⱼ x k j · w j l))  ·  σ (∑ₖ a i k · (∑ⱼ x k j · wg j l)),       σ z = 1 / (1 + e^(−z)).

  The inner sum is the projected feature of node `k` (`proj`), the outer one its aggregation over the neighbours of
  `i` (`agg`). Nothing here is re-associated: both programs aggregate the PROJECTED features, so the two nested sums
  are the same term on both sides and no distributive law (which fails at the infinities) is needed; the only law
  used downstream is commutativity of the product, which the extended reals have.
-/
import Idealize.ShloMosaic.PureOps.Ideal
import Idealize.ShloMosaic.Lib.ValueIdx

noncomputable section

open scoped BigOperators

namespace GatedConv

open Idealize.ShloMosaic Idealize.ShloMosaic.ValueIdx

/-- The shapes of the mathematics: node features, adjacency, weights. -/
abbrev Feat : Shape := ⟨2, ![10000, 128]⟩
abbrev Adj : Shape := ⟨2, ![10000, 10000]⟩
abbrev Wt : Shape := ⟨2, ![128, 128]⟩

/-- The projected feature `l` of node `k`: row `k` of `x` against column `l` of `w`. -/
def proj (x : Feat.Idx → EReal) (w : Wt.Idx → EReal) (k : Fin 10000) (l : Fin 128) : EReal :=
  ∑ j : Fin 128, x (ix2 k j) * w (ix2 j l)

/-- The aggregation at node `i`: row `i` of the adjacency against the projected features of every node. -/
def agg (a : Adj.Idx → EReal) (x : Feat.Idx → EReal) (w : Wt.Idx → EReal) (i : Fin 10000) (l : Fin 128) : EReal :=
  ∑ k : Fin 10000, a (ix2 i k) * proj x w k l

/-- The gated convolution: the aggregated support times the logistic of the aggregated gate. -/
def gated (x : Feat.Idx → EReal) (a : Adj.Idx → EReal) (w wg : Wt.Idx → EReal) : Feat.Idx → EReal :=
  fun i => agg a x w (i 0) (i 1) * Ideal.logistic (agg a x wg (i 0) (i 1))

theorem gated_apply (x : Feat.Idx → EReal) (a : Adj.Idx → EReal) (w wg : Wt.Idx → EReal) (i : Fin 10000) (l : Fin 128) :
    gated x a w wg (ix2 i l) = agg a x w i l * Ideal.logistic (agg a x wg i l) := rfl

/-- The f32 pattern of `1.0` is the extended real `1`. -/
theorem one_f32 : Ideal.ofBits .f32 0x3F800000#32 = 1 := by
  simp [Ideal.ofBits, Ideal.ieee, -EReal.coe_mul]
  norm_num

/-- The logistic as the host spells it, one over one plus the exponential of the negation, is the logistic. -/
theorem logistic_spelled (z : EReal) : Ideal.div 1 (1 + Ideal.exp (-z)) = Ideal.logistic z := rfl

end GatedConv

end
-- ==== Proof.Payload.lean ====
/-
  The body's arithmetic read at one element, on the extended reals.

  A matrix product into a zero accumulator is, at an element, the sum over the one contracted coordinate of the
  operands' products; a change of float format is the identity; the two projections laid side by side are read on
  the left half (columns 0–127) as the support's and on the right half (columns 128–255) as the gate's; the two
  slices of the wide product are its left and right halves. So the block a grid point stores is, at row `r` and
  feature `l`,

      (∑ₖ a r k · s k l) · σ (∑ₖ a r k · s k (128 + l))

  for its adjacency rows `a` and the parked projections `s`, and with `s` the projections of `x` by `w` and `wg` this
  is the aggregation of `GatedConv` over the block's rows.
-/
import proofs.«180950_g21887153340605_cont_8to1_463_3_alg».proof.Proof.Gen.KernelIdeal.Skeleton
import proofs.«180950_g21887153340605_cont_8to1_463_3_alg».proof.Proof.Spec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.ValueIdx GatedConv

/-! ## The projection product: rows of `x` against columns of a weight matrix -/

theorem projL0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem projL1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem projR0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem projR1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The projection product at node `k`, feature `l`: the projected feature of the mathematics. -/
theorem projection_apply (x : FVec Ideal S10000x128 .f32) (w : FVec Ideal S128x128 .f32) (k : Fin 10000) (l : Fin 128) :
    matmul dot_S10000x128_S128x128_S10000x128_1_0_0_1_n_n none x w (constant S10000x128 .f32 0x00000000#32) (ix2 k l) = proj x w k l := by
  unfold proj
  simp only [matmul]
  rw [Ideal.matmul_constant_zero_apply, ← Equiv.sum_comp (contrEquiv1 dot_S10000x128_S128x128_S10000x128_1_0_0_1_n_n 128 rfl rfl).symm]
  refine Finset.sum_congr rfl fun j _ => ?_
  have hk := contrEquiv1_symm_val dot_S10000x128_S128x128_S10000x128_1_0_0_1_n_n 128 rfl rfl j
  have el : dot_S10000x128_S128x128_S10000x128_1_0_0_1_n_n.lhsIdx (ix2 k l) ((contrEquiv1 dot_S10000x128_S128x128_S10000x128_1_0_0_1_n_n 128 rfl rfl).symm j) = ix2 k j := funext fun a => Fin.ext (by
    match a with
    | ⟨0, _⟩ => exact projL0 _ _
    | ⟨1, _⟩ => exact (projL1 _ _).trans hk)
  have er : dot_S10000x128_S128x128_S10000x128_1_0_0_1_n_n.rhsIdx (ix2 k l) ((contrEquiv1 dot_S10000x128_S128x128_S10000x128_1_0_0_1_n_n 128 rfl rfl).symm j) = ix2 j l := funext fun a => Fin.ext (by
    match a with
    | ⟨0, _⟩ => exact (projR0 _ _).trans hk
    | ⟨1, _⟩ => exact projR1 _ _)
  rw [el, er]

/-! ## The aggregation product: a block of adjacency rows against the parked projections -/

theorem aggL0 (i : S200x256.Idx) (q : dot_S200x10000_S10000x256_S200x256_1_0_0_1_n_n.contr.Idx) :
    (dot_S200x10000_S10000x256_S200x256_1_0_0_1_n_n.lhsIdx i q 0).val = (i 0).val := by
  unfold DotDims.lhsIdx
  rw [dif_neg (show ¬(0 : Fin S200x10000.rank) ∈ dot_S200x10000_S10000x256_S200x256_1_0_0_1_n_n.lhsBatch by decide), dif_pos (show (0 : Fin S200x10000.rank) ∈ dot_S200x10000_S10000x256_S200x256_1_0_0_1_n_n.lhsNonContracting by decide)]
  rfl
theorem aggL1 (i : S200x256.Idx) (q : dot_S200x10000_S10000x256_S200x256_1_0_0_1_n_n.contr.Idx) :
    (dot_S200x10000_S10000x256_S200x256_1_0_0_1_n_n.lhsIdx i q 1).val = (q ⟨0, by decide⟩).val :=
  dot_S200x10000_S10000x256_S200x256_1_0_0_1_n_n.lhsIdx_val_of_single rfl i q
theorem aggR0 (i : S200x256.Idx) (q : dot_S200x10000_S10000x256_S200x256_1_0_0_1_n_n.contr.Idx) :
    (dot_S200x10000_S10000x256_S200x256_1_0_0_1_n_n.rhsIdx i q 0).val = (q ⟨0, by decide⟩).val :=
  dot_S200x10000_S10000x256_S200x256_1_0_0_1_n_n.rhsIdx_val_of_single rfl i q
theorem aggR1 (i : S200x256.Idx) (q : dot_S200x10000_S10000x256_S200x256_1_0_0_1_n_n.contr.Idx) :
    (dot_S200x10000_S10000x256_S200x256_1_0_0_1_n_n.rhsIdx i q 1).val = (i 1).val := by
  unfold DotDims.rhsIdx
  rw [dif_neg (show ¬(1 : Fin S10000x256.rank) ∈ dot_S200x10000_S10000x256_S200x256_1_0_0_1_n_n.rhsBatch by decide), dif_pos (show (1 : Fin S10000x256.rank) ∈ dot_S200x10000_S10000x256_S200x256_1_0_0_1_n_n.rhsNonContracting by decide)]
  rfl

/-- The wide product at row `r` of the block and column `q` of the parked projections. -/
theorem aggregation_apply (a : FVec Ideal S200x10000 .bf16) (s : FVec Ideal S10000x256 .bf16) (r : Fin 200) (q : Fin 256) :
    matmul dot_S200x10000_S10000x256_S200x256_1_0_0_1_n_n none a s (constant S200x256 .f32 0x00000000#32) (ix2 r q) = ∑ k : Fin 10000, a (ix2 r k) * s (ix2 k q) := by
  simp only [matmul]
  rw [Ideal.matmul_constant_zero_apply, ← Equiv.sum_comp (contrEquiv1 dot_S200x10000_S10000x256_S200x256_1_0_0_1_n_n 10000 rfl rfl).symm]
  refine Finset.sum_congr rfl fun k _ => ?_
  have hk := contrEquiv1_symm_val dot_S200x10000_S10000x256_S200x256_1_0_0_1_n_n 10000 rfl rfl k
  have el : dot_S200x10000_S10000x256_S200x256_1_0_0_1_n_n.lhsIdx (ix2 r q) ((contrEquiv1 dot_S200x10000_S10000x256_S200x256_1_0_0_1_n_n 10000 rfl rfl).symm k) = ix2 r k := funext fun a => Fin.ext (by
    match a with
    | ⟨0, _⟩ => exact aggL0 _ _
    | ⟨1, _⟩ => exact (aggL1 _ _).trans hk)
  have er : dot_S200x10000_S10000x256_S200x256_1_0_0_1_n_n.rhsIdx (ix2 r q) ((contrEquiv1 dot_S200x10000_S10000x256_S200x256_1_0_0_1_n_n 10000 rfl rfl).symm k) = ix2 k q := funext fun a => Fin.ext (by
    match a with
    | ⟨0, _⟩ => exact (aggR0 _ _).trans hk
    | ⟨1, _⟩ => exact aggR1 _ _)
  rw [el, er]

/-! ## The two halves -/

/-- Column `l` of the left half of a 256-wide row. -/
abbrev lcol (l : Fin 128) : Fin 256 := ⟨l.val, by have := l.isLt; omega⟩
/-- Column `l` of the right half. -/
abbrev rcol (l : Fin 128) : Fin 256 := ⟨128 + l.val, by have := l.isLt; omega⟩

theorem left_slice_apply (v : FVec Ideal S200x256 .f32) (r : Fin 200) (l : Fin 128) :
    extractStridedSlice S200x128 ![0, 0] v slices_S200x256_o0_0_S200x128 (ix2 r l) = v (ix2 r (lcol l)) :=
  extractStridedSlice_apply _ v _ (ix2 r l) (ix2 r (lcol l)) fun a => by
    match a with
    | ⟨0, _⟩ => show r.val = 0 + r.val; omega
    | ⟨1, _⟩ => show l.val = 0 + l.val; omega

theorem right_slice_apply (v : FVec Ideal S200x256 .f32) (r : Fin 200) (l : Fin 128) :
    extractStridedSlice S200x128 ![0, 128] v slices_S200x256_o0_128_S200x128 (ix2 r l) = v (ix2 r (rcol l)) :=
  extractStridedSlice_apply _ v _ (ix2 r l) (ix2 r (rcol l)) fun a => by
    match a with
    | ⟨0, _⟩ => show r.val = 0 + r.val; omega
    | ⟨1, _⟩ => show 128 + l.val = 128 + l.val; rfl

/-- The two projections laid side by side, before the change of format. -/
def sideBySide (x : FVec Ideal S10000x128 .f32) (w wg : FVec Ideal S128x128 .f32) : FVec Ideal S10000x256 .f32 :=
  concatenate S10000x256 1
    [⟨S10000x128, matmul dot_S10000x128_S128x128_S10000x128_1_0_0_1_n_n none x w (constant S10000x128 .f32 0x00000000#32)⟩,
     ⟨S10000x128, matmul dot_S10000x128_S128x128_S10000x128_1_0_0_1_n_n none x wg (constant S10000x128 .f32 0x00000000#32)⟩]
    concatenates_S10000x128_S10000x128_S10000x256_d1

/-- What the first point parks is that, element by element: the change of format is the identity. -/
theorem parked_eq (x : Vec Ideal S10000x128 .f32) (w wg : Vec Ideal S128x128 .f32) (j : S10000x256.Idx) :
    k0_pay1 x w wg j = sideBySide x w wg j := by
  unfold k0_pay1
  rw [shapeCast_self]
  rfl

/-- The parked projections on the left half: the support's projection. -/
theorem parked_left (x : Vec Ideal S10000x128 .f32) (w wg : Vec Ideal S128x128 .f32) (k : Fin 10000) (l : Fin 128) :
    k0_pay1 x w wg (ix2 k (lcol l)) = proj x w k l := by
  rw [parked_eq]
  unfold sideBySide
  refine (concatenate_pair_apply_left (s₁ := S10000x128) (s₂ := S10000x128) (1 : Fin 2) _ _ concatenates_S10000x128_S10000x128_S10000x256_d1 (ix2 k (lcol l)) rfl (ix2 k l) ?_).trans
    (projection_apply x w k l)
  intro b
  match b with
  | ⟨0, _⟩ => rfl
  | ⟨1, _⟩ => rfl

/-- The parked projections on the right half: the gate's projection. -/
theorem parked_right (x : Vec Ideal S10000x128 .f32) (w wg : Vec Ideal S128x128 .f32) (k : Fin 10000) (l : Fin 128) :
    k0_pay1 x w wg (ix2 k (rcol l)) = proj x wg k l := by
  rw [parked_eq]
  unfold sideBySide
  refine (concatenate_pair_apply_right (s₁ := S10000x128) (s₂ := S10000x128) (1 : Fin 2) _ _ concatenates_S10000x128_S10000x128_S10000x256_d1 (ix2 k (rcol l)) rfl rfl (ix2 k l) ?_ ?_).trans
    (projection_apply x wg k l)
  · intro b hb
    match b with
    | ⟨0, _⟩ => rfl
    | ⟨1, _⟩ => exact absurd rfl hb
  · show l.val + 128 = 128 + l.val
    omega

/-- The wide product of a block of adjacency rows with parked contents. -/
def wide (a : FVec Ideal S200x10000 .f32) (s : FVec Ideal S10000x256 .bf16) : FVec Ideal S200x256 .f32 :=
  matmul dot_S200x10000_S10000x256_S200x256_1_0_0_1_n_n none (truncf .bf16 a bitsLt_bf16_f32) s (constant S200x256 .f32 0x00000000#32)

theorem wide_apply (a : FVec Ideal S200x10000 .f32) (s : FVec Ideal S10000x256 .bf16) (r : Fin 200) (q : Fin 256) :
    wide a s (ix2 r q) = ∑ k : Fin 10000, a (ix2 r k) * s (ix2 k q) := by
  unfold wide
  exact aggregation_apply _ s r q

/-- The block a grid point stores, at row `r` and feature `l`, for adjacency rows `a` and parked contents `s`. -/
theorem stored_apply (a : Vec Ideal S200x10000 .f32) (s : Vec Ideal S10000x256 .bf16) (r : Fin 200) (l : Fin 128) :
    k0_pay2 a s (ix2 r l)
      = (∑ k : Fin 10000, a (ix2 r k) * s (ix2 k (lcol l))) * Ideal.logistic (∑ k : Fin 10000, a (ix2 r k) * s (ix2 k (rcol l))) := by
  show extractStridedSlice S200x128 ![0, 0] (wide a s) slices_S200x256_o0_0_S200x128 (ix2 r l)
    * Ideal.logistic (extractStridedSlice S200x128 ![0, 128] (wide a s) slices_S200x256_o0_128_S200x128 (ix2 r l)) = _
  rw [left_slice_apply, right_slice_apply, wide_apply, wide_apply]

/-- With the projections of `x` parked, the stored block is the gated aggregation over the block's adjacency rows. -/
theorem stored_parked_apply (a : Vec Ideal S200x10000 .f32) (x : Vec Ideal S10000x128 .f32) (w wg : Vec Ideal S128x128 .f32)
    (r : Fin 200) (l : Fin 128) :
    k0_pay2 a (k0_pay1 x w wg) (ix2 r l)
      = (∑ k : Fin 10000, a (ix2 r k) * proj x w k l) * Ideal.logistic (∑ k : Fin 10000, a (ix2 r k) * proj x wg k l) := by
  rw [stored_apply]
  simp only [parked_left, parked_right]

end Cert.KernelIdeal.Payload

end
-- ==== Proof.Blocks.lean ====
/-
  From the grid points to the whole result array.

  The scratch is written once, at the first grid point, with the projections of the whole feature matrix by both
  weight matrices, and no later point stores into it: after every point it still holds those projections
  (`scratch_eq`, by induction on the point). So every point, the first included, stores the gated product of its own
  200 rows of the adjacency with those projections (`out_eq`).

  On the extended reals that block is, element by element, rows `200·t … 200·t + 199` of the gated convolution of
  the four argument arrays (`block_rows`, stated over plain arrays; `flushed_eq` instantiates it at point `t`'s
  blocks: the feature matrix and the weights are staged whole, the adjacency and the result in blocks of 200 rows
  whose block index is the point's number). The fifty row blocks tile the 10000 rows (row `i` lies in block
  `i / 200`), so the result array ends holding the gated convolution (`final`).
-/
import proofs.«180950_g21887153340605_cont_8to1_463_3_alg».proof.Proof.Gen.KernelIdeal.Value
import proofs.«180950_g21887153340605_cont_8to1_463_3_alg».proof.Proof.Pieces
import proofs.«180950_g21887153340605_cont_8to1_463_3_alg».proof.Proof.Payload

noncomputable section

namespace Cert.KernelIdeal.Blocks

open Cert.KernelIdeal Cert.KernelIdeal.Gen Idealize.ShloMosaic Idealize.ShloMosaic.TcCoe Idealize.SL.Sem
open Idealize.ShloMosaic.ValueIdx GatedConv
open Idealize.ShloMosaic.Pipeline (Dat)

/-! ## What the scratch and the output block hold after each point, at any float instance -/

section AnyInstance

variable {F : FTy → Type} [FloatOps F]
variable (m : (ℓ : Loc nD τ sig) → Buf (Elt F) ℓ)

/-- The first grid point. -/
abbrev first : Fin cfg0.N := ⟨0, by rw [show cfg0.N = 50 from N_0]; decide⟩

/-- The projections the first point parks: of its three whole input blocks. -/
def parked (c : Dev nD) : Vec F S10000x256 .bf16 :=
  Pieces.projected (iblk m c 0 first) (iblk m c 1 first) (iblk m c 2 first)

/-- After every point the scratch holds what the first point parked. -/
theorem scratch_eq (c : Dev nD) : ∀ (n : ℕ) (h : n < cfg0.N), (outsAt0 m c n h).2 = parked m c
  | 0, h => by
    rw [outsAt0_A m c ⟨0, h⟩ rfl]
    dsimp only
    exact Pieces.first_scratch c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) (ms0_4 ⟨0, h⟩) (hs0_4 ⟨0, h⟩) scM0_0 (Memref.isWhole_whole _)
      ((hcond0_0 ⟨0, h⟩).mpr rfl) (iblk m c 0 ⟨0, h⟩) (iblk m c 1 ⟨0, h⟩) (iblk m c 2 ⟨0, h⟩) (iblk m c 3 ⟨0, h⟩)
  | n + 1, h => by
    have hN : cfg0.N = 50 := N_0
    have hB : ¬(⟨n + 1, h⟩ : Fin cfg0.N).val % 50 = 0 := by dsimp only; omega
    rw [outsAt0_B m c ⟨n + 1, h⟩ hB]
    dsimp only
    unfold sout0_B_0
    exact scratch_eq c n (Nat.lt_of_succ_lt h)

/-- Every point stores the gated product of its adjacency block with the parked projections. -/
theorem out_eq (c : Dev nD) (t : Fin cfg0.N) :
    (outsAt0 m c t.val t.isLt).1 = Pieces.gatedBlock (iblk m c 3 t) (parked m c) := by
  have hN : cfg0.N = 50 := N_0
  by_cases h0 : t.val % 50 = 0
  · have ht : t = first := Fin.ext (by have := t.isLt; show t.val = 0; omega)
    subst ht
    rw [outsAt0_A m c first h0]
    dsimp only
    exact Pieces.first_out c (grid0.coords first) (ms0_0 first) (hs0_0 first) (ms0_1 first) (hs0_1 first)
      (ms0_2 first) (hs0_2 first) (ms0_3 first) (hs0_3 first) (ms0_4 first) (hs0_4 first) scM0_0 (Memref.isWhole_whole _)
      ((hcond0_0 first).mpr h0) (iblk m c 0 first) (iblk m c 1 first) (iblk m c 2 first) (iblk m c 3 first)
  · rw [outsAt0_B m c t h0]
    dsimp only
    refine (Pieces.later_out c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) (iblk m c 0 t) (iblk m c 1 t)
      (iblk m c 2 t) (iblk m c 3 t) (outsAt0 m c (t.val - 1) (Nat.lt_of_le_of_lt (Nat.sub_le _ _) t.isLt)).2).trans ?_
    rw [scratch_eq m c (t.val - 1) (Nat.lt_of_le_of_lt (Nat.sub_le _ _) t.isLt)]

end AnyInstance

/-! ## A stored block is a block of rows of the gated convolution -/

/-- Over plain arrays: if `ablk` is rows `200·b …` of the adjacency `A`, the block stored from it and from the parked
    projections of `X` by `W` and `Wg` is, at row `r`, row `200·b + r` of the gated convolution. -/
theorem block_rows (X : Feat.Idx → EReal) (A : Adj.Idx → EReal) (W Wg : Wt.Idx → EReal)
    (ablk : Vec Ideal S200x10000 .f32) (x : Vec Ideal S10000x128 .f32) (w wg : Vec Ideal S128x128 .f32)
    (hx : x = X) (hw : w = W) (hwg : wg = Wg) (i : Fin 10000) (r : Fin 200)
    (ha : ∀ k : Fin 10000, ablk (ix2 r k) = A (ix2 i k)) (l : Fin 128) :
    k0_pay2 ablk (k0_pay1 x w wg) (ix2 r l) = gated X A W Wg (ix2 i l) := by
  subst hx hw hwg
  rw [Payload.stored_parked_apply, gated_apply]
  unfold agg
  simp only [ha]

/-! ## The index maps, decided once over the fifty points -/

/-- The feature matrix and the weights are staged whole; the adjacency's and the result's block of rows is the
    point's number, their column block the only one. -/
theorem index_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The result array -/

section AtIdeal

variable (m : (ℓ : Loc nD τ sig) → Buf (Elt Ideal) ℓ) (ρ : Dev nD → PrngReg)

/-- The gated convolution of the four argument arrays as launched. -/
abbrev result (c : Dev nD) : Feat.Idx → EReal :=
  gated (m ((c : Thread nD τ).loc main_arg0)) (m ((c : Thread nD τ).loc main_arg1)) (m ((c : Thread nD τ).loc main_arg2))
    (m ((c : Thread nD τ).loc main_arg3))

/-- A whole-array window's block is the array. -/
theorem x_block (c : Dev nD) (t : Fin cfg0.N) : (iblk m c 0 t : Vec Ideal S10000x128 .f32) = m ((c : Thread nD τ).loc main_arg0) := by
  obtain ⟨e00, e01, -⟩ := index_facts t
  funext y
  show V m c main_arg0 (((cfg0.win 0).blk t).view.emb y) = V m c main_arg0 y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem w_block (c : Dev nD) (t : Fin cfg0.N) : (iblk m c 1 t : Vec Ideal S128x128 .f32) = m ((c : Thread nD τ).loc main_arg2) := by
  obtain ⟨-, -, e10, e11, -⟩ := index_facts t
  funext y
  show V m c main_arg2 (((cfg0.win 1).blk t).view.emb y) = V m c main_arg2 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem wg_block (c : Dev nD) (t : Fin cfg0.N) : (iblk m c 2 t : Vec Ideal S128x128 .f32) = m ((c : Thread nD τ).loc main_arg3) := by
  obtain ⟨-, -, -, -, e20, e21, -⟩ := index_facts t
  funext y
  show V m c main_arg3 (((cfg0.win 2).blk t).view.emb y) = V m c main_arg3 y
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- Row `r` of point `t`'s adjacency block is row `200·t + r` of the adjacency. -/
theorem adj_block (c : Dev nD) (t : Fin cfg0.N) (r : Fin 200) (i : Fin 10000) (hi : i.val = t.val * 200 + r.val) (k : Fin 10000) :
    (iblk m c 3 t : Vec Ideal S200x10000 .f32) (ix2 r k) = m ((c : Thread nD τ).loc main_arg1) (ix2 i k) := by
  obtain ⟨-, -, -, -, -, -, e30, e31, -⟩ := index_facts t
  show V m c main_arg1 (((cfg0.win 3).blk t).view.emb (ix2 r k)) = V m c main_arg1 (ix2 i k)
  refine congrArg _ (funext fun a => Fin.ext ?_)
  match a with
  | ⟨0, _⟩ => show win0_3.index t (0 : Fin 2) * 200 + 1 * r.val = i.val; omega
  | ⟨1, _⟩ => show win0_3.index t (1 : Fin 2) * 10000 + 1 * k.val = k.val; omega

/-- What point `t` writes back is its block of rows of the gated convolution. -/
theorem flushed_eq (c : Dev nD) (t : Fin cfg0.N) :
    (dats m 0 c).flushed 4 t = ((cfg0.win 4).blk t).view.read (Elt Ideal) (result m c) := by
  have hN : cfg0.N = 50 := N_0
  obtain ⟨-, -, -, -, -, -, -, -, e40, e41⟩ := index_facts t
  rw [Value.flushed4, out_eq]
  funext j
  obtain ⟨r, l, rfl⟩ : ∃ (r : Fin 200) (l : Fin 128), j = ix2 r l := ⟨j 0, j 1, eq_ix2 j⟩
  have hrow : t.val * 200 + r.val < 10000 := by have := t.isLt; have := r.isLt; omega
  show k0_pay2 (iblk m c 3 t) (k0_pay1 (iblk m c 0 first) (iblk m c 1 first) (iblk m c 2 first)) (ix2 r l)
    = result m c (((cfg0.win 4).blk t).view.emb (ix2 r l))
  refine (block_rows _ _ _ _ (iblk m c 3 t) (iblk m c 0 first) (iblk m c 1 first) (iblk m c 2 first)
    (x_block m c first) (w_block m c first) (wg_block m c first) ⟨t.val * 200 + r.val, hrow⟩ r
    (adj_block m c t r ⟨t.val * 200 + r.val, hrow⟩ rfl) l).trans ?_
  refine congrArg (result m c) (funext fun a => Fin.ext ?_)
  match a with
  | ⟨0, _⟩ => show t.val * 200 + r.val = win0_4.index t (0 : Fin 2) * 200 + 1 * r.val; omega
  | ⟨1, _⟩ => show l.val = win0_4.index t (1 : Fin 2) * 128 + 1 * l.val; omega

/-- An index of the result array is in point `t`'s block iff each coordinate is in the block's range. -/
theorem mem_block (t : Fin cfg0.N) (i : S10000x128.Idx) :
    i ∈ ((cfg0.win 4).blk t).view.set ↔ ∀ a : Fin 2, win0_4.index t a * S200x128.size a ≤ (i a).val ∧ (i a).val < win0_4.index t a * S200x128.size a + S200x128.size a := by
  show i ∈ ((View.whole main_v0).slice (win0_4.rect t)).set ↔ _
  rw [View.set_slice_whole, Rect.mem_set_unit]
  exact Iff.rfl

/-- Row `i` lies in the block of point `i / 200`. -/
theorem cover (i : S10000x128.Idx) : ∃ t : Fin cfg0.N, (cfg0.win 4).flush t = true ∧ i ∈ ((cfg0.win 4).blk t).view.set := by
  have hN : cfg0.N = 50 := N_0
  have hi0 : (i 0).val < 10000 := (i 0).isLt
  have hi1 : (i 1).val < 128 := (i 1).isLt
  let t : Fin cfg0.N := ⟨(i 0).val / 200, by omega⟩
  obtain ⟨-, -, -, -, -, -, -, -, e40, e41⟩ := index_facts t
  have e40' : win0_4.index t (0 : Fin 2) = (i 0).val / 200 := e40
  refine ⟨t, flush0_4 t, ?_⟩
  rw [mem_block]
  intro a
  match a with
  | ⟨0, _⟩ => show win0_4.index t (0 : Fin 2) * 200 ≤ (i 0).val ∧ (i 0).val < win0_4.index t (0 : Fin 2) * 200 + 200; omega
  | ⟨1, _⟩ => show win0_4.index t (1 : Fin 2) * 128 ≤ (i 1).val ∧ (i 1).val < win0_4.index t (1 : Fin 2) * 128 + 128; omega

/-- The result array after the run is the gated convolution of the arguments. -/
theorem final (c : Dev nD) : (dats m 0 c).arrAt 4 cfg0.N = result m c :=
  (dats m 0 c).arrAt_eq_of_cover 4 (result m c) (fun t _ => flushed_eq m c t) cover

/-- The kernel's run: the result array at the gated convolution, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end AtIdeal

end Cert.KernelIdeal.Blocks

end
-- ==== Proof.RefIsGated.lean ====
/-
  The reference program computes the gated convolution.

  Its thirteen host operations are four matrix products (the two projections `x·w`, `x·wg` and their aggregations
  by the adjacency), the logistic spelled as `1 / (1 + exp (−z))`, and one product. Read at an index, each matrix
  product is the sum over its one contracted coordinate, so the result at `(i, l)` is

      σ (∑ₖ a i k · (∑ⱼ x k j · wg j l))  ·  (∑ₖ a i k · (∑ⱼ x k j · w j l)),

  which is `GatedConv.gated` with the two factors exchanged: commutativity of the product on the extended reals.
-/
import proofs.«180950_g21887153340605_cont_8to1_463_3_alg».proof.Proof.Gen.ReferenceIdeal.Read
import proofs.«180950_g21887153340605_cont_8to1_463_3_alg».proof.Proof.Spec

noncomputable section

namespace Cert.ReferenceIdeal.RefValue

open Cert.ReferenceIdeal Cert.ReferenceIdeal.Read Idealize.ShloMosaic Idealize.ShloMosaic.ValueIdx GatedConv

/-! The operand indices of the four products are the coordinate pairs one expects: row of the left operand with the
    contracted coordinate, contracted coordinate with the column of the right operand. -/

theorem lidx_v0 (i : S10000x128.Idx) (k : Fin 128) : lidx_main_v0 i k = ix2 (i 0) k :=
  funext fun a => by match a with | ⟨0, _⟩ => rfl | ⟨1, _⟩ => rfl
theorem ridx_v0 (i : S10000x128.Idx) (k : Fin 128) : ridx_main_v0 i k = ix2 k (i 1) :=
  funext fun a => by match a with | ⟨0, _⟩ => rfl | ⟨1, _⟩ => rfl
theorem lidx_v1 (i : S10000x128.Idx) (k : Fin 128) : lidx_main_v1 i k = ix2 (i 0) k :=
  funext fun a => by match a with | ⟨0, _⟩ => rfl | ⟨1, _⟩ => rfl
theorem ridx_v1 (i : S10000x128.Idx) (k : Fin 128) : ridx_main_v1 i k = ix2 k (i 1) :=
  funext fun a => by match a with | ⟨0, _⟩ => rfl | ⟨1, _⟩ => rfl
theorem lidx_v2 (i : S10000x128.Idx) (k : Fin 10000) : lidx_main_v2 i k = ix2 (i 0) k :=
  funext fun a => by match a with | ⟨0, _⟩ => rfl | ⟨1, _⟩ => rfl
theorem ridx_v2 (i : S10000x128.Idx) (k : Fin 10000) : ridx_main_v2 i k = ix2 k (i 1) :=
  funext fun a => by match a with | ⟨0, _⟩ => rfl | ⟨1, _⟩ => rfl
theorem lidx_v3 (i : S10000x128.Idx) (k : Fin 10000) : lidx_main_v3 i k = ix2 (i 0) k :=
  funext fun a => by match a with | ⟨0, _⟩ => rfl | ⟨1, _⟩ => rfl
theorem ridx_v3 (i : S10000x128.Idx) (k : Fin 10000) : ridx_main_v3 i k = ix2 k (i 1) :=
  funext fun a => by match a with | ⟨0, _⟩ => rfl | ⟨1, _⟩ => rfl

/-- The first projection, at node `k` and feature `l`. -/
theorem support_apply (x : Feat.Idx → EReal) (w : Wt.Idx → EReal) (k : Fin 10000) (l : Fin 128) :
    val_main_v0 (F := Ideal) x w (ix2 k l) = proj x w k l := by
  rw [val_main_v0_apply]
  simp only [lidx_v0, ridx_v0]
  rfl

/-- The second projection (the gate's), likewise. -/
theorem gate_apply (x : Feat.Idx → EReal) (wg : Wt.Idx → EReal) (k : Fin 10000) (l : Fin 128) :
    val_main_v1 (F := Ideal) x wg (ix2 k l) = proj x wg k l := by
  rw [val_main_v1_apply]
  simp only [lidx_v1, ridx_v1]
  rfl

/-- The aggregated support at node `i`. -/
theorem agg_support_apply (x : Feat.Idx → EReal) (a : Adj.Idx → EReal) (w : Wt.Idx → EReal) (i : Fin 10000) (l : Fin 128) :
    val_main_v2 (F := Ideal) x a w (ix2 i l) = agg a x w i l := by
  rw [val_main_v2_apply]
  simp only [lidx_v2, ridx_v2]
  exact Finset.sum_congr rfl fun k _ => congrArg (a (ix2 i k) * ·) (support_apply x w k l)

/-- The aggregated gate at node `i`. -/
theorem agg_gate_apply (x : Feat.Idx → EReal) (a : Adj.Idx → EReal) (wg : Wt.Idx → EReal) (i : Fin 10000) (l : Fin 128) :
    val_main_v3 (F := Ideal) x a wg (ix2 i l) = agg a x wg i l := by
  rw [val_main_v3_apply]
  simp only [lidx_v3, ridx_v3]
  exact Finset.sum_congr rfl fun k _ => congrArg (a (ix2 i k) * ·) (gate_apply x wg k l)

/-- The reference's result is the gated convolution of its four arguments. -/
theorem result_eq (x : Feat.Idx → EReal) (a : Adj.Idx → EReal) (w wg : Wt.Idx → EReal) :
    val_main_v10 (F := Ideal) x a w wg = gated x a w wg := by
  funext j
  obtain ⟨i, l, rfl⟩ : ∃ (i : Fin 10000) (l : Fin 128), j = ix2 i l := ⟨j 0, j 1, eq_ix2 j⟩
  rw [val_main_v10_apply, val_main_v9_apply, val_main_v8_apply, val_main_cst_0_apply, val_main_v7_apply,
    val_main_v6_apply, val_main_cst_apply, val_main_v5_apply, val_main_v4_apply, agg_gate_apply, agg_support_apply,
    gated_apply]
  simp only [Ideal.mulf_def, Ideal.hostDivf_def, Ideal.addf_def, Ideal.hostUnary_exp_def, Ideal.hostNegf_def,
    Ideal.negf_def, Ideal.ofBits_def, one_f32, logistic_spelled]
  exact mul_comm _ _

end Cert.ReferenceIdeal.RefValue

end
-- ==== Proof.lean ====
/-
  The kernel and its reference compute one function on the extended reals: the gated graph convolution

      out i l = (∑ₖ a i k · (∑ⱼ x k j · w j l)) · σ (∑ₖ a i k · (∑ⱼ x k j · wg j l)),    σ z = 1 / (1 + e^(−z)).

  The kernel projects the features once, at the first of its fifty grid points, keeps both projections side by side in
  a scratch buffer, and at every point multiplies 200 rows of the adjacency with them and gates the left half of the
  product by the logistic of the right half; the fifty blocks of rows tile the result (Proof/Blocks.lean, over
  Proof/Pieces.lean and Proof/Payload.lean). The reference computes the two projections, their two aggregations and the
  logistic spelled out, and multiplies in the other order (Proof/RefIsGated.lean). Both sides aggregate the PROJECTED
  features, so the nested sums agree term by term; the only law between the two results is commutativity of the
  product. Changes of float format are the identity here, and no input needs to be finite for any step.

  The three frames are the generated ones (the reference's is its run with the result dropped); the kernel's
  idealization rewrote nothing, so there is nothing to preserve.
-/
import proofs.«180950_g21887153340605_cont_8to1_463_3_alg».proof.Defs
import proofs.«180950_g21887153340605_cont_8to1_463_3_alg».proof.Proof.Gen.Kernel
import proofs.«180950_g21887153340605_cont_8to1_463_3_alg».proof.Proof.Gen.Kernel.Frame
import proofs.«180950_g21887153340605_cont_8to1_463_3_alg».proof.Proof.Gen.KernelIdeal
import proofs.«180950_g21887153340605_cont_8to1_463_3_alg».proof.Proof.Gen.KernelIdeal.Frame
import proofs.«180950_g21887153340605_cont_8to1_463_3_alg».proof.Proof.Gen.KernelIdeal.Value
import proofs.«180950_g21887153340605_cont_8to1_463_3_alg».proof.Proof.Gen.ReferenceIdeal
import proofs.«180950_g21887153340605_cont_8to1_463_3_alg».proof.Proof.Gen.ReferenceIdeal.Run
import proofs.«180950_g21887153340605_cont_8to1_463_3_alg».proof.Proof.Gen.ReferenceIdeal.Read
import proofs.«180950_g21887153340605_cont_8to1_463_3_alg».proof.Proof.Gen.Pre_finite_inputs
import proofs.«180950_g21887153340605_cont_8to1_463_3_alg».proof.Proof.Blocks
import proofs.«180950_g21887153340605_cont_8to1_463_3_alg».proof.Proof.RefIsGated
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the gated convolution of the (agreeing) arguments in their result arrays. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
